-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  main_v3
-- ==== Kernel.lean ====
abbrev S16x1x1024x1024 : Shape := ⟨4, ![16, 1, 1024, 1024]⟩
abbrev S_ : Shape := ⟨0, ![]⟩
abbrev S16x1x1026x1026 : Shape := ⟨4, ![16, 1, 1026, 1026]⟩
abbrev S1x1x1026x1026 : Shape := ⟨4, ![1, 1, 1026, 1026]⟩
abbrev S1x1x1024x1024 : Shape := ⟨4, ![1, 1, 1024, 1024]⟩
abbrev S1026x1026 : Shape := ⟨2, ![1026, 1026]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S16x1x1024x1024, .f32⟩
  | .hbm, ⟨1, _⟩ => ⟨S_, .i32⟩
  | .hbm, ⟨2, _⟩ => ⟨S_, .f32⟩
  | .hbm, ⟨3, _⟩ => ⟨S16x1x1026x1026, .f32⟩
  | .hbm, ⟨4, _⟩ => ⟨S16x1x1024x1024, .f32⟩
  | .local _ .vmem, ⟨0, _⟩ => ⟨S1x1x1026x1026, .f32⟩
  | .local _ .vmem, ⟨1, _⟩ => ⟨S1x1x1026x1026, .f32⟩
  | .local _ .vmem, ⟨2, _⟩ => ⟨S1x1x1024x1024, .f32⟩
  | .local _ .vmem, ⟨3, _⟩ => ⟨S1x1x1024x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1026x1026 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x1x1024x1024_S16x1x1026x1026_000_000_110_110 : S16x1x1024x1024.Pads (![0, 0, 1, 1] : Fin 4 → Nat) ![0, 0, 1, 1] ![0, 0, 0, 0] S16x1x1026x1026
  h_S_ : 0 < S_.numel
  inb_S1x1x1026x1026_S1x1x1026x1026_0_0_0_0 : ∀ a, (![0, 0, 0, 0] : Fin 4 → Nat) a + S1x1x1026x1026.size a ≤ S1x1x1026x1026.size a
  h_S1x1x1026x1026 : 0 < S1x1x1026x1026.numel
  shapeCasts_S1x1x1026x1026_S1026x1026 : S1x1x1026x1026.ShapeCasts S1026x1026
  slices_S1026x1026_o0_0_S1024x1024 : S1026x1026.Slices ![0, 0] S1024x1024
  slices_S1026x1026_o0_1_S1024x1024 : S1026x1026.Slices ![0, 1] S1024x1024
  slices_S1026x1026_o0_2_S1024x1024 : S1026x1026.Slices ![0, 2] S1024x1024
  slices_S1026x1026_o1_0_S1024x1024 : S1026x1026.Slices ![1, 0] S1024x1024
  slices_S1026x1026_o1_1_S1024x1024 : S1026x1026.Slices ![1, 1] S1024x1024
  slices_S1026x1026_o1_2_S1024x1024 : S1026x1026.Slices ![1, 2] S1024x1024
  slices_S1026x1026_o2_0_S1024x1024 : S1026x1026.Slices ![2, 0] S1024x1024
  slices_S1026x1026_o2_1_S1024x1024 : S1026x1026.Slices ![2, 1] S1024x1024
  slices_S1026x1026_o2_2_S1024x1024 : S1026x1026.Slices ![2, 2] S1024x1024
  natLt_1_32 : 1 < 32
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1026x1026.size a ≤ S16x1x1026x1026.size a
  hwx0_0 : ∀ i : grid0.Coords, EltTy.bits .f32 = 32 ∨ (Rect.block (s := S16x1x1026x1026) S1x1x1026x1026.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)

variable [Facts₀]

abbrev win0_0 : Pipeline.Window sig grid0 :=
  Pipeline.Window.ofSpec (Memref.whole main_v0) S1x1x1026x1026.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16x1x1026x1026 : Shape := ⟨4, ![16, 1, 1026, 1026]⟩

abbrev nBuf : Space → Nat
  | .hbm => 13
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S_, .i32⟩
  | .hbm, ⟨2, _⟩ => ⟨S_, .f32⟩
  | .hbm, ⟨3, _⟩ => ⟨S16x1x1026x1026, .f32⟩
  | .hbm, ⟨4, _⟩ => ⟨S_, .f32⟩
  | .hbm, ⟨5, _⟩ => ⟨S16x1x1024x1024, .f32⟩
  | .hbm, ⟨6, _⟩ => ⟨S_, .f32⟩
  | .hbm, ⟨7, _⟩ => ⟨S16x1x1024x1024, .f32⟩
  | .hbm, ⟨8, _⟩ => ⟨S16x1x1024x1024, .f32⟩
  | .hbm, ⟨9, _⟩ => ⟨S_, .f32⟩
  | .hbm, ⟨10, _⟩ => ⟨S16x1x1024x1024, .f32⟩
  | .hbm, ⟨11, _⟩ => ⟨S16x1x1024x1024, .i1⟩
  | .hbm, ⟨12, _⟩ => ⟨S16x1x1024x1024, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  pads_S16x1x1024x1024_S16x1x1026x1026_000_000_110_110 : S16x1x1024x1024.Pads (![0, 0, 1, 1] : Fin 4 → Nat) ![0, 0, 1, 1] ![0, 0, 0, 0] S16x1x1026x1026
  h_S_ : 0 < S_.numel
  reduceWindows_S16x1x1026x1026_S16x1x1024x1024_w1s1p0_0_w1s1p0_0_w3s1p0_0_w3s1p0_0 : S16x1x1026x1026.ReduceWindows (![1, 1, 3, 3] : Fin 4 → Nat) ![1, 1, 1, 1] ![0, 0, 0, 0] ![0, 0, 0, 0] S16x1x1024x1024
  bcast_S_S16x1x1024x1024 : S_.BroadcastsInDim S16x1x1024x1024 (![] : Fin 0 → Fin S16x1x1024x1024.rank)

variable [Facts₀]

class Facts : Prop extends Facts₀ where

variable [Facts]
-- ==== Proof.LibReduceWindow.lean ====
/-
  A `stablehlo.reduce_window` without padding, read at one index of its result.

  `Host.reduceWindow f window strides lo hi x init` at a result index `j` is the left fold of `f`, started at the
  initial value, over the positions `n` of the window in row-major order; position `n` contributes the operand's element
  at `j · strides + n` (coordinate by coordinate) when that lies inside the operand, and the initial value when it
  falls in the padding. With no low padding every position lies inside the operand, so the case split disappears and
  the fold runs over elements of the operand alone (`reduceWindow_apply_of_no_low_padding`: the caller names the
  element read at each position, and the bound that makes it a position of the operand is the index's own).

  The second lemma is the case met in image code: a 3×3 window moved with stride one over the last two axes of a
  rank-4 array `[n0, n1, Hp, Wp]`, the two leading axes untouched. The nine positions in row-major order are
  `(dy, dx) = (0,0), (0,1), (0,2), (1,0), …, (2,2)`, so the result at `(a, b, r, c)` is
  `f (… (f (f init x[a,b,r,c]) x[a,b,r,c+1]) …) x[a,b,r+2,c+2]` (`fold3x3`, `reduceWindow_3x3_apply`).
-/
import Idealize.ShloMosaic.PureOps
import Idealize.ShloMosaic.Lib.ValueIdx

namespace Cert.Lib.ReduceWindow

open Idealize.ShloMosaic Idealize.ShloMosaic.ValueIdx

/-- An unpadded window reduction at the result index `j`: the left fold of `f` from the initial value over the
    window's positions in row-major order, position `n` reading the operand at the index `k n` whose coordinates are
    `j · strides + n`. -/
theorem reduceWindow_apply_of_no_low_padding {α : Type} {s t u : Shape} (f : α → α → α)
    (window strides lo hi : Fin s.rank → Nat) (x : s.Idx → α) (init : u.Idx → α)
    (h : s.ReduceWindows window strides lo hi t) (hu : 0 < u.numel) (hlo : ∀ a, lo a = 0) (j : t.Idx)
    (k : Fin (⟨s.rank, window⟩ : Shape).numel → s.Idx)
    (hk : ∀ n a, (k n a).val
      = (j (a.cast h.1.symm)).val * strides a + ((⟨s.rank, window⟩ : Shape).rowMajor.symm n a).val) :
    Host.reduceWindow f window strides lo hi x init h hu j
      = (List.finRange (⟨s.rank, window⟩ : Shape).numel).foldl (fun r n => f r (x (k n)))
          (init (Shape.Idx.first hu)) := by
  unfold Host.reduceWindow
  dsimp only
  congr 1
  funext r n
  have hin : ∀ a, lo a ≤ (j (a.cast h.1.symm)).val * strides a
        + ((⟨s.rank, window⟩ : Shape).rowMajor.symm n a).val
      ∧ (j (a.cast h.1.symm)).val * strides a
        + ((⟨s.rank, window⟩ : Shape).rowMajor.symm n a).val - lo a < s.size a := fun a => by
    rw [hlo a, Nat.sub_zero, ← hk n a]
    exact ⟨Nat.zero_le _, (k n a).isLt⟩
  rw [dif_pos hin]
  congr 2
  funext a
  apply Fin.ext
  show (j (a.cast h.1.symm)).val * strides a + ((⟨s.rank, window⟩ : Shape).rowMajor.symm n a).val - lo a
    = (k n a).val
  rw [hlo a, Nat.sub_zero, hk n a]

/-- The left fold of `f` from `v` over a 3×3 family, rows first. -/
def fold3x3 {α : Type} (f : α → α → α) (v : α) (e : Fin 3 → Fin 3 → α) : α :=
  f (f (f (f (f (f (f (f (f v (e 0 0)) (e 0 1)) (e 0 2)) (e 1 0)) (e 1 1)) (e 1 2)) (e 2 0)) (e 2 1)) (e 2 2)

/-- A left fold over the numbers below `N`, written out, when `N` is nine. -/
theorem foldl_finRange_of_eq_nine {β : Type} {N : Nat} (hN : N = 9) (g : β → Fin N → β) (v : β) :
    (List.finRange N).foldl g v
      = g (g (g (g (g (g (g (g (g v ⟨0, by omega⟩) ⟨1, by omega⟩) ⟨2, by omega⟩) ⟨3, by omega⟩) ⟨4, by omega⟩)
          ⟨5, by omega⟩) ⟨6, by omega⟩) ⟨7, by omega⟩) ⟨8, by omega⟩ := by
  subst hN; rfl

/-- Position `n` of a `[1, 1, 3, 3]` window, in row-major order, is row `n / 3`, column `n % 3`. -/
theorem window_1133_pos (n : Fin (⟨4, ![1, 1, 3, 3]⟩ : Shape).numel) :
    (⟨4, ![1, 1, 3, 3]⟩ : Shape).rowMajor.symm n
      = ix4 (0 : Fin 1) (0 : Fin 1) (⟨n.val / 3, by have := n.isLt; change n.val < 9 at this; omega⟩ : Fin 3)
          (⟨n.val % 3, Nat.mod_lt _ (by decide)⟩ : Fin 3) := by
  rw [Equiv.symm_apply_eq]
  apply Fin.ext
  rw [Shape.rowMajor_val_four]
  show n.val = (((0 : Nat) * 1 + 0) * 3 + n.val / 3) * 3 + n.val % 3
  omega

/-- A 3×3 window reduction with stride one and no padding over the last two axes of a rank-4 array, at
    `(a, b, r, c)`: the fold, rows first, over the nine elements `x[a, b, r + dy, c + dx]`. -/
theorem reduceWindow_3x3_apply {α : Type} {n0 n1 H W Hp Wp : Nat} {u : Shape} (f : α → α → α)
    (x : (⟨4, ![n0, n1, Hp, Wp]⟩ : Shape).Idx → α) (init : u.Idx → α)
    (h : (⟨4, ![n0, n1, Hp, Wp]⟩ : Shape).ReduceWindows ![1, 1, 3, 3] ![1, 1, 1, 1] ![0, 0, 0, 0] ![0, 0, 0, 0]
      ⟨4, ![n0, n1, H, W]⟩)
    (hu : 0 < u.numel) (hH : H + 2 ≤ Hp) (hW : W + 2 ≤ Wp) (a : Fin n0) (b : Fin n1) (r : Fin H) (c : Fin W) :
    Host.reduceWindow f ![1, 1, 3, 3] ![1, 1, 1, 1] ![0, 0, 0, 0] ![0, 0, 0, 0] x init h hu (ix4 a b r c)
      = fold3x3 f (init (Shape.Idx.first hu)) (fun dy dx =>
          x (ix4 a b (⟨r.val + dy.val, by have := r.isLt; have := dy.isLt; omega⟩ : Fin Hp)
            (⟨c.val + dx.val, by have := c.isLt; have := dx.isLt; omega⟩ : Fin Wp))) := by
  have h9 : ∀ n : Fin (⟨4, ![1, 1, 3, 3]⟩ : Shape).numel, n.val < 9 := fun n => n.isLt
  rw [reduceWindow_apply_of_no_low_padding f ![1, 1, 3, 3] ![1, 1, 1, 1] ![0, 0, 0, 0] ![0, 0, 0, 0] x init h hu
    (fun e => match e with | ⟨0, _⟩ => rfl | ⟨1, _⟩ => rfl | ⟨2, _⟩ => rfl | ⟨3, _⟩ => rfl) (ix4 a b r c)
    (fun n => ix4 a b (⟨r.val + n.val / 3, by have := r.isLt; have := h9 n; omega⟩ : Fin Hp)
      (⟨c.val + n.val % 3, by have := c.isLt; have := Nat.mod_lt n.val (by decide : 0 < 3); omega⟩ : Fin Wp))
    (fun n e => by
      rw [window_1133_pos n]
      match e with
      | ⟨0, _⟩ => show a.val = a.val * 1 + 0; omega
      | ⟨1, _⟩ => show b.val = b.val * 1 + 0; omega
      | ⟨2, _⟩ => show r.val + n.val / 3 = r.val * 1 + n.val / 3; omega
      | ⟨3, _⟩ => show c.val + n.val % 3 = c.val * 1 + n.val % 3; omega)]
  refine (foldl_finRange_of_eq_nine (by decide : (⟨4, ![1, 1, 3, 3]⟩ : Shape).numel = 9) _ _).trans ?_
  unfold fold3x3
  simp only [Fin.val_mk]
  rfl

end Cert.Lib.ReduceWindow
-- ==== Proof.EdgeMask.lean ====
/-
  The depth-edge mask as one function of the zero-padded stack of images.

  For a padded stack `P` of shape [16, 1, 1026, 1026] the mask has shape [16, 1, 1024, 1024]; its value at
  `(b, 0, r, c)` depends only on the nine padded pixels `P[b, 0, r + dy, c + dx]`, `dy, dx ∈ {0, 1, 2}`:

      mask = 1  if  max₉ − min₉ > θ,   else 0,

  where `max₉` folds `max` from `−∞` and `min₉` folds `min` from `+∞` over the nine pixels, rows first, and `θ` is the
  f32 threshold `0x3DCCCCCD` (never evaluated: it is the same word wherever it occurs). `pixel` is that value as a
  function of the nine pixels.

  `mask` states the whole array the way a host program spells it — two 3×3 window reductions of the padded stack,
  their difference compared with the broadcast threshold, the boolean converted to a float — and `mask_apply` reads it
  at one index as `pixel` of the nine neighbours. Nothing here needs an order-independence law for `max` or `min`:
  a window reduction folds its window rows first, which is the order `pixel` is written in.

  `kpixel` is the same value with the last step spelt the other way — the comparison's bit zero-extended to 32 bits
  and converted as a SIGNED integer — and `kpixel_eq_pixel` says the two conversions agree: a zero-extended bit is 0
  or 1 as a signed integer too.
-/
import Idealize.ShloMosaic.PureOps.Ideal
import Idealize.ShloMosaic.Lib.ValueIdx
import Idealize.ShloMosaic.Lib.Pipeline.Value
import proofs.«144148_j1726576855683_1_alg».proof.Proof.LibReduceWindow

noncomputable section

namespace Cert.EdgeMask

open Idealize.ShloMosaic Idealize.ShloMosaic.ValueIdx Cert.Lib.ReduceWindow

/-- The zero-padded stack, the mask, and a rank-zero constant. -/
abbrev Padded : Shape := ⟨4, ![16, 1, 1026, 1026]⟩
abbrev Img : Shape := ⟨4, ![16, 1, 1024, 1024]⟩
abbrev Sc : Shape := ⟨0, ![]⟩

/-- The padded pixel `(dy, dx)` of the 3×3 neighbourhood whose top-left corner is padded pixel `(r, c)` of image `b`
    (that neighbourhood is centred on pixel `(r, c)` of the unpadded image). -/
abbrev nbr (b : Fin 16) (r c : Fin 1024) (dy dx : Fin 3) : Padded.Idx :=
  ix4 b (0 : Fin 1) (⟨r.val + dy.val, by have := r.isLt; have := dy.isLt; omega⟩ : Fin 1026)
    (⟨c.val + dx.val, by have := c.isLt; have := dx.isLt; omega⟩ : Fin 1026)

/-- The spread `max₉ − min₉` of nine values and its comparison with the threshold, as a bit. -/
def overThreshold (e : Fin 3 → Fin 3 → Ideal .f32) : BitVec 1 :=
  FloatOps.cmpf (F := Ideal) (φ := .f32) .ogt
    (FloatOps.subf (F := Ideal) (φ := .f32)
      (fold3x3 (FloatOps.maximumf (F := Ideal) (φ := .f32)) (FloatOps.ofBits (F := Ideal) .f32 0xFF800000#32) e)
      (fold3x3 (FloatOps.minimumf (F := Ideal) (φ := .f32)) (FloatOps.ofBits (F := Ideal) .f32 0x7F800000#32) e))
    (FloatOps.ofBits (F := Ideal) .f32 0x3DCCCCCD#32)

/-- The mask's value from the nine neighbours: the bit as an unsigned integer, as a float. -/
def pixel (e : Fin 3 → Fin 3 → Ideal .f32) : Ideal .f32 :=
  FloatOps.uitofp (F := Ideal) .f32 (overThreshold e)

/-- The same with the bit zero-extended to a 32-bit word and converted as a signed integer. -/
def kpixel (e : Fin 3 → Fin 3 → Ideal .f32) : Ideal .f32 :=
  FloatOps.sitofp (F := Ideal) .f32 ((overThreshold e).setWidth 32)

/-- A bit zero-extended to 32 bits reads the same signed as the bit reads unsigned. -/
theorem toInt_setWidth_bit : ∀ b : BitVec 1, (b.setWidth 32).toInt = (b.toNat : Int) := by decide

/-- The two conversions of the comparison's bit agree. -/
theorem kpixel_eq_pixel (e : Fin 3 → Fin 3 → Ideal .f32) : kpixel e = pixel e := by
  show (((((overThreshold e).setWidth 32).toInt : ℝ)) : EReal) = ((((overThreshold e).toNat : ℝ)) : EReal)
  rw [toInt_setWidth_bit, Int.cast_natCast]

/-- The shape relations the host operations below ask for: a 3×3 window with stride one and no padding takes
    [16, 1, 1026, 1026] to [16, 1, 1024, 1024]; a rank-zero constant has an element; it broadcasts to the mask's shape. -/
theorem hw : Padded.ReduceWindows (![1, 1, 3, 3] : Fin 4 → Nat) ![1, 1, 1, 1] ![0, 0, 0, 0] ![0, 0, 0, 0] Img := by
  decide
theorem hs : 0 < Sc.numel := by decide
theorem hb : Sc.BroadcastsInDim Img (![] : Fin 0 → Fin Img.rank) := by decide

/-- The mask of a padded stack as a host program spells it: the 3×3 window maximum and minimum (stride one, no padding
    of their own), their difference, its comparison with the broadcast threshold, the boolean as a float. -/
def mask (P : FVec Ideal Padded .f32) : FVec Ideal Img .f32 :=
  uitofp .f32 (cmpf .ogt
    (subf
      (Host.reduceWindow FloatOps.maximumf ![1, 1, 3, 3] ![1, 1, 1, 1] ![0, 0, 0, 0] ![0, 0, 0, 0] P
        (constant (F := Ideal) Sc .f32 0xFF800000#32) hw hs)
      (Host.reduceWindow FloatOps.minimumf ![1, 1, 3, 3] ![1, 1, 1, 1] ![0, 0, 0, 0] ![0, 0, 0, 0] P
        (constant (F := Ideal) Sc .f32 0x7F800000#32) hw hs))
    (broadcastInDim Img ![] hb (constant (F := Ideal) Sc .f32 0x3DCCCCCD#32)))

/-- The mask at `(b, 0, r, c)` is `pixel` of the nine padded pixels under the window there. -/
theorem mask_apply (P : FVec Ideal Padded .f32) (b : Fin 16) (r c : Fin 1024) :
    mask P (ix4 b (0 : Fin 1) r c) = pixel (fun dy dx => P (nbr b r c dy dx)) := by
  show FloatOps.uitofp (F := Ideal) .f32 (FloatOps.cmpf (F := Ideal) (φ := .f32) .ogt
      (FloatOps.subf (F := Ideal) (φ := .f32)
        (Host.reduceWindow FloatOps.maximumf ![1, 1, 3, 3] ![1, 1, 1, 1] ![0, 0, 0, 0] ![0, 0, 0, 0] P
          (constant (F := Ideal) Sc .f32 0xFF800000#32) hw hs (ix4 b (0 : Fin 1) r c))
        (Host.reduceWindow FloatOps.minimumf ![1, 1, 3, 3] ![1, 1, 1, 1] ![0, 0, 0, 0] ![0, 0, 0, 0] P
          (constant (F := Ideal) Sc .f32 0x7F800000#32) hw hs (ix4 b (0 : Fin 1) r c)))
      (broadcastInDim Img ![] hb (constant (F := Ideal) Sc .f32 0x3DCCCCCD#32) (ix4 b (0 : Fin 1) r c))) = _
  have hthr : broadcastInDim Img ![] hb (constant (F := Ideal) Sc .f32 0x3DCCCCCD#32) (ix4 b (0 : Fin 1) r c)
      = constant (F := Ideal) Sc .f32 0x3DCCCCCD#32 (fun a => a.elim0) :=
    broadcastInDim_apply _ hb _ _ _ (fun a => a.elim0)
  rw [reduceWindow_3x3_apply FloatOps.maximumf P _ hw hs (by decide) (by decide) b (0 : Fin 1) r c,
    reduceWindow_3x3_apply FloatOps.minimumf P _ hw hs (by decide) (by decide) b (0 : Fin 1) r c, hthr]
  rfl

end Cert.EdgeMask

end
-- ==== Proof.KernelPixel.lean ====
/-
  What the kernel body stores at one pixel of its output block.

  The body loads one padded image (a [1, 1, 1026, 1026] block), drops the two unit axes, takes the nine
  [1024, 1024] slices at offsets `(oy, ox)`, `oy, ox ∈ {0, 1, 2}`, folds `max` from `−∞` and `min` from `+∞` over them in
  the order `(0,0), (0,1), …, (2,2)`, compares the difference with the threshold, zero-extends the bit, converts it as
  a signed integer and puts the unit axes back. A slice at offset `(oy, ox)` read at `(r, c)` is the block's pixel
  `(r + oy, c + ox)` (`slice_apply`), everything else is pointwise, so the stored value at `(0, 0, r, c)` is `kpixel` of
  the nine pixels `(r + dy, c + dx)` of the block (`pay_apply`).
-/
import proofs.«144148_j1726576855683_1_alg».proof.Proof.Gen.KernelIdeal.Skeleton
import proofs.«144148_j1726576855683_1_alg».proof.Proof.EdgeMask
import Idealize.ShloMosaic.Lib.Pipeline.Value
import Idealize.ShloMosaic.Lib.ValueIdx

noncomputable section

namespace Cert.KernelIdeal.Edge

open Cert.KernelIdeal Cert.KernelIdeal.Gen Idealize.ShloMosaic Idealize.ShloMosaic.ValueIdx
open Cert.Lib.ReduceWindow Cert.EdgeMask

/-- Pixel `(r + dy, c + dx)` of one padded image block. -/
abbrev bnbr (r c : Fin 1024) (dy dx : Fin 3) : S1x1x1026x1026.Idx :=
  ix4 (0 : Fin 1) (0 : Fin 1) (⟨r.val + dy.val, by have := r.isLt; have := dy.isLt; omega⟩ : Fin 1026)
    (⟨c.val + dx.val, by have := c.isLt; have := dx.isLt; omega⟩ : Fin 1026)

/-- The [1024, 1024] slice at offset `(oy, ox)` of the block with its unit axes dropped, read at `(r, c)`, is the
    block's pixel `(r + oy, c + ox)`. -/
theorem slice_apply (P0 : Vec Ideal S1x1x1026x1026 .f32) (oy ox : Nat) (hoy : oy < 3) (hox : ox < 3)
    (hc : S1x1x1026x1026.ShapeCasts S1026x1026) (hs : S1026x1026.Slices ![oy, ox] S1024x1024) (r c : Fin 1024) :
    extractStridedSlice S1024x1024 ![oy, ox] (shapeCast S1026x1026 P0 hc) hs (ix2 r c)
      = P0 (bnbr r c ⟨oy, hoy⟩ ⟨ox, hox⟩) := by
  refine (extractStridedSlice_apply ![oy, ox] _ hs (ix2 r c)
    (ix2 (⟨r.val + oy, by have := r.isLt; omega⟩ : Fin 1026) (⟨c.val + ox, by have := c.isLt; omega⟩ : Fin 1026))
    (fun a => match a with
      | ⟨0, _⟩ => by show r.val + oy = oy + r.val; omega
      | ⟨1, _⟩ => by show c.val + ox = ox + c.val; omega)).trans ?_
  exact shapeCast_apply P0 hc _ (bnbr r c ⟨oy, hoy⟩ ⟨ox, hox⟩) (by
    rw [Shape.rowMajor_val_four, Shape.rowMajor_val_two]
    show (((0 : Nat) * 1 + 0) * 1026 + (r.val + oy)) * 1026 + (c.val + ox) = (r.val + oy) * 1026 + (c.val + ox)
    omega)

/-- The stored value at `(0, 0, r, c)`: `kpixel` of the nine block pixels under the window there. -/
theorem pay_apply (P0 : Vec Ideal S1x1x1026x1026 .f32) (r c : Fin 1024) :
    k0_pay1 (F := Ideal) P0 (ix4 (0 : Fin 1) (0 : Fin 1) r c) = kpixel (fun dy dx => P0 (bnbr r c dy dx)) := by
  unfold k0_pay1
  refine (shapeCast_apply _ _ (ix4 (0 : Fin 1) (0 : Fin 1) r c) (ix2 r c) (by
    rw [Shape.rowMajor_val_two, Shape.rowMajor_val_four]
    show r.val * 1024 + c.val = ((((0 : Nat) * 1 + 0) * 1024 + r.val) * 1024 + c.val)
    omega)).trans ?_
  simp only [sitofp_apply, extui_apply, cmpf_apply, subf_apply, maximumf_apply, minimumf_apply, broadcast_apply,
    slice_apply P0 0 0 (by decide) (by decide), slice_apply P0 0 1 (by decide) (by decide),
    slice_apply P0 0 2 (by decide) (by decide), slice_apply P0 1 0 (by decide) (by decide),
    slice_apply P0 1 1 (by decide) (by decide), slice_apply P0 1 2 (by decide) (by decide),
    slice_apply P0 2 0 (by decide) (by decide), slice_apply P0 2 1 (by decide) (by decide),
    slice_apply P0 2 2 (by decide) (by decide)]
  rfl

end Cert.KernelIdeal.Edge

end
-- ==== Proof.KernelValue.lean ====
/-
  The kernel's result array after the run: the mask of the zero-padded input.

  The pallas_call walks a grid of 16 points, one per image. At point `t` the input window's block is padded image `t`
  (block index `(t, 0, 0, 0)`, block [1, 1, 1026, 1026]) and the output window's block is image `t` of the result
  (block index `(t, 0, 0, 0)`, block [1, 1, 1024, 1024]); neither is cut at an edge. So what point `t` writes back, at
  block index `(0, 0, r, c)`, is `kpixel` of the nine padded pixels `(t, 0, r + dy, c + dx)` (`pay_apply`), which is the
  mask of the padded array at `(t, 0, r, c)` (`mask_apply`, `kpixel_eq_pixel`): `flushed_eq`. Every index `(b, 0, r, c)`
  of the result lies in point `b`'s block (`cover`), so the array ends holding the mask everywhere (`final`). The padded
  array is what the host operations before the region wrote: the zero-padding of the argument (`V_main_v0`).
-/
import proofs.«144148_j1726576855683_1_alg».proof.Proof.Gen.KernelIdeal.Frame
import proofs.«144148_j1726576855683_1_alg».proof.Proof.KernelPixel
import Idealize.ShloMosaic.Lib.Pipeline.Value
import Idealize.ShloMosaic.Lib.StableHlo.Run

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx Cert.Lib.ReduceWindow Cert.EdgeMask
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The two printed index maps, decided over the 16 grid points: both windows sit at block `(t, 0, 0, 0)`. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The image a grid point works on. -/
abbrev imgOf (t : Fin cfg0.N) : Fin 16 := ⟨t.val, by have h : t.val < grid0.N := t.isLt; rw [N_0] at h; exact h⟩

/-- A block pixel's row and column, typed by the literal extent. -/
abbrev rowOf (y : S1x1x1024x1024.Idx) : Fin 1024 := ⟨(y 2).val, (y 2).isLt⟩
abbrev colOf (y : S1x1x1024x1024.Idx) : Fin 1024 := ⟨(y 3).val, (y 3).isLt⟩

/-- One image's worth of the claim, over variables: if the loaded block `P0` is padded image `b` of the array `Q`, the
    body's stored value at a block index `y` is the mask of `Q` at `(b, 0, row y, col y)`. -/
theorem block_pixel (Q : FVec Ideal S16x1x1026x1026 .f32) (P0 : Vec Ideal S1x1x1026x1026 .f32) (b : Fin 16)
    (hP : ∀ (p q : Fin 1026), P0 (ix4 (0 : Fin 1) (0 : Fin 1) p q) = Q (ix4 b (0 : Fin 1) p q))
    (y : S1x1x1024x1024.Idx) :
    k0_pay1 (F := Ideal) P0 y = mask Q (ix4 b (0 : Fin 1) (rowOf y) (colOf y)) := by
  have hy : y = ix4 (0 : Fin 1) (0 : Fin 1) (rowOf y) (colOf y) := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
    | ⟨3, _⟩ => rfl
  rw [hy, pay_apply, mask_apply, kpixel_eq_pixel]
  exact congrArg pixel (funext fun dy => funext fun dx => hP _ _)

/-- WHAT POINT `t` WRITES BACK is block `t` of the mask of the padded array as the region finds it. -/
theorem flushed_eq (c : Dev nD) (t : Fin cfg0.N) :
    (dats m 0 c).flushed 1 t = ((cfg0.win 1).blk t).view.read (Elt Ideal) (mask (V m c main_v0)) := by
  show (cfg0.win 1).cut (grid0.coords t) ((dats m 0 c).after 1 t) = _
  rw [after0_1]
  unfold out0_1
  rw [View.canon_unit_zero hz4]
  simp only [View.ld_unit_zero (S := S1x1x1026x1026) hz4]
  obtain ⟨e0, e1, e2, e3, f0, f1, f2, f3⟩ := idx_facts t
  funext y
  show k0_pay1 (F := Ideal) (iblk m c 0 t) y = mask (V m c main_v0) (((cfg0.win 1).blk t).view.emb y)
  refine (block_pixel (V m c main_v0) (iblk m c 0 t) (imgOf t) (fun p q => ?_) y).trans ?_
  · show V m c main_v0 (((cfg0.win 0).blk t).view.emb (ix4 (0 : Fin 1) (0 : Fin 1) p q)) = _
    refine congrArg (V m c main_v0) (funext fun a => Fin.ext ?_)
    match a with
    | ⟨0, _⟩ => show win0_0.index t (0 : Fin 4) * 1 + 1 * 0 = t.val; omega
    | ⟨1, _⟩ => show win0_0.index t (1 : Fin 4) * 1 + 1 * 0 = 0; omega
    | ⟨2, _⟩ => show win0_0.index t (2 : Fin 4) * 1026 + 1 * p.val = p.val; omega
    | ⟨3, _⟩ => show win0_0.index t (3 : Fin 4) * 1026 + 1 * q.val = q.val; omega
  · refine congrArg (mask (V m c main_v0)) (funext fun a => Fin.ext ?_)
    have h0 : (y 0).val < 1 := (y 0).isLt
    have h1 : (y 1).val < 1 := (y 1).isLt
    match a with
    | ⟨0, _⟩ => show t.val = win0_1.index t (0 : Fin 4) * 1 + 1 * (y 0).val; omega
    | ⟨1, _⟩ => show 0 = win0_1.index t (1 : Fin 4) * 1 + 1 * (y 1).val; omega
    | ⟨2, _⟩ => show (y 2).val = win0_1.index t (2 : Fin 4) * 1024 + 1 * (y 2).val; omega
    | ⟨3, _⟩ => show (y 3).val = win0_1.index t (3 : Fin 4) * 1024 + 1 * (y 3).val; omega

/-- An index of the result is in point `t`'s block iff each coordinate is in the block's range on its axis. -/
theorem mem_blk (t : Fin cfg0.N) (i : S16x1x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v1).slice (win0_1.rect t)).set ↔ _
  rw [View.set_slice_whole, Rect.mem_set_unit]
  exact Iff.rfl

/-- Every index `(b, 0, r, c)` of the result is in the block of the point that works on image `b`. -/
theorem cover (i : S16x1x1024x1024.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1024 := (i 2).isLt
  have hi3 : (i 3).val < 1024 := (i 3).isLt
  have hN : (i 0).val < cfg0.N := by show (i 0).val < grid0.N; rw [N_0]; exact hi0
  refine ⟨⟨(i 0).val, hN⟩, flush0_1 _, ?_⟩
  obtain ⟨-, -, -, -, f0, f1, f2, f3⟩ := idx_facts ⟨(i 0).val, hN⟩
  rw [mem_blk]
  intro a
  match a with
  | ⟨0, _⟩ =>
    show win0_1.index ⟨(i 0).val, hN⟩ (0 : Fin 4) * 1 ≤ (i 0).val
      ∧ (i 0).val < win0_1.index ⟨(i 0).val, hN⟩ (0 : Fin 4) * 1 + 1
    have : win0_1.index ⟨(i 0).val, hN⟩ (0 : Fin 4) = (i 0).val := f0
    omega
  | ⟨1, _⟩ =>
    show win0_1.index ⟨(i 0).val, hN⟩ (1 : Fin 4) * 1 ≤ (i 1).val
      ∧ (i 1).val < win0_1.index ⟨(i 0).val, hN⟩ (1 : Fin 4) * 1 + 1
    omega
  | ⟨2, _⟩ =>
    show win0_1.index ⟨(i 0).val, hN⟩ (2 : Fin 4) * 1024 ≤ (i 2).val
      ∧ (i 2).val < win0_1.index ⟨(i 0).val, hN⟩ (2 : Fin 4) * 1024 + 1024
    omega
  | ⟨3, _⟩ =>
    show win0_1.index ⟨(i 0).val, hN⟩ (3 : Fin 4) * 1024 ≤ (i 3).val
      ∧ (i 3).val < win0_1.index ⟨(i 0).val, hN⟩ (3 : Fin 4) * 1024 + 1024
    omega

/-- THE RESULT ARRAY after the run is the mask of the padded array. -/
theorem final (c : Dev nD) : (dats m 0 c).arrAt 1 cfg0.N = mask (V m c main_v0) :=
  (dats m 0 c).arrAt_eq_of_cover 1 (mask (V m c main_v0)) (fun t _ => flushed_eq m c t) cover

/-- The argument padded with one ring of the converted integer zero: what the host operations before the region leave
    in the padded array. -/
abbrev padded (x : FVec Ideal S16x1x1024x1024 .f32) : FVec Ideal S16x1x1026x1026 .f32 :=
  pad S16x1x1026x1026 ![0, 0, 1, 1] ![0, 0, 1, 1] ![0, 0, 0, 0] x (sitofp (F := Ideal) .f32 (constantI S_ 32 0#32))
    Gen.pads_S16x1x1024x1024_S16x1x1026x1026_000_000_110_110 Gen.h_S_

theorem V_main_v0 (c : Dev nD) :
    (V m c main_v0 : S16x1x1026x1026.Idx → Ideal .f32) = padded (m ((c : Thread nD τ).loc main_arg0)) := by
  dsimp only [V]
  simp only [hostOps0, hostOps0_1, List.flatten_cons, List.flatten_nil, List.append_nil, List.cons_append,
    List.nil_append]
  after_results
  rfl

/-- The frame run re-posted: the result array at the mask of the padded argument, the argument unchanged. -/
theorem run : θ_run defs (onTc (τ := τ) (main (F := Ideal))) ⟨m, fun _ => 0, ρ⟩ fun r => ∀ c : Dev nD,
      r.2.mem ((c : Thread nD τ).loc main_v1) = mask (padded (m ((c : Thread nD τ).loc main_arg0)))
      ∧ r.2.mem ((c : Thread nD τ).loc main_arg0) = m ((c : Thread nD τ).loc main_arg0) :=
  (θ_run defs _ _).mono (fun r h c =>
      ⟨((h c).1 1).trans ((final m c).trans (congrArg mask (V_main_v0 m c))),
        ((h c).2 main_arg0 (Pipeline.mem_restRefs_of main_arg0 (by decide) (by decide))).trans (V_main_arg0 m c)⟩)
    (run_main m ρ)

end Cert.KernelIdeal.Edge

end
-- ==== Proof.lean ====
/-
  Depth-edge extraction: for a stack of 16 one-channel 1024×1024 depth images, zero-pad each image by one pixel, take
  at every pixel the maximum and the minimum over its 3×3 neighbourhood, and mark the pixel 1.0 where
  `max − min > θ` (θ the f32 nearest 0.1, the same word in both programs), else 0.0.

  The kernel does it one image per grid point on the padded stack; the reference does it with two window reductions
  over the whole padded stack. At the ideal instance `max` and `min` are the lattice operations of the extended reals
  and both programs fold the nine neighbours in the same order (rows first, from `−∞` resp. `+∞`), so the two results
  are the same function `EdgeMask.mask` of the same padded array, pixel by pixel; the only difference in spelling is
  the last conversion (the comparison's bit zero-extended and read signed in the kernel, read unsigned in the
  reference), and a single bit reads the same both ways (`EdgeMask.kpixel_eq_pixel`). No property of the input is
  used: the precondition is never opened.

  Modules: LibReduceWindow (a window reduction without padding read at an index; the 3×3 case), EdgeMask (the mask
  as one function of the padded array, read at a pixel), KernelPixel (what the kernel body stores at a pixel),
  KernelValue (the kernel's result array after the run), and here the claims: the frames from the generated frame
  certificates and the generated reference run, `preserves` (no rewrite was applied), `algebraic`.
-/
import proofs.«144148_j1726576855683_1_alg».proof.Defs
import proofs.«144148_j1726576855683_1_alg».proof.Proof.Gen.Kernel
import proofs.«144148_j1726576855683_1_alg».proof.Proof.Gen.Kernel.Frame
import proofs.«144148_j1726576855683_1_alg».proof.Proof.Gen.KernelIdeal
import proofs.«144148_j1726576855683_1_alg».proof.Proof.Gen.KernelIdeal.Frame
import proofs.«144148_j1726576855683_1_alg».proof.Proof.Gen.ReferenceIdeal
import proofs.«144148_j1726576855683_1_alg».proof.Proof.Gen.ReferenceIdeal.Run
import proofs.«144148_j1726576855683_1_alg».proof.Proof.Gen.Pre_finite_inputs
import proofs.«144148_j1726576855683_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the mask of the zero-padded argument: the kernel by `Edge.run`, the reference because its
    run's term IS `mask` of the padded argument, operation for operation. -/
theorem algebraic : Cert.algebraic_KernelIdeal_ReferenceIdeal := by
  intro m ρ m' ρ' _ hagree
  refine ⟨_, Cert.KernelIdeal.Edge.run m ρ, ?_⟩
  refine (θ_run Cert.ReferenceIdeal.defs _ _).mono (fun _ h c => ⟨(h c).1.trans ?_, (h c).2⟩)
    (Cert.ReferenceIdeal.Value.run (F := Ideal) m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
